-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S128x128 .f32) (main_arg2 : FVec F S128x128 .f32) (main_arg3 : FVec F S128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S8192x128 : Shape := ⟨2, ![8192, 128]⟩
abbrev S128x128 : Shape := ⟨2, ![128, 128]⟩
abbrev S128 : Shape := ⟨1, ![128]⟩
abbrev S128x8192x128 : Shape := ⟨3, ![128, 8192, 128]⟩
abbrev S64x128 : Shape := ⟨2, ![64, 128]⟩
abbrev S128x64x128 : Shape := ⟨3, ![128, 64, 128]⟩
abbrev S128x64 : Shape := ⟨2, ![128, 64]⟩
abbrev S128x64x1 : Shape := ⟨3, ![128, 64, 1]⟩
abbrev S128x1x128 : Shape := ⟨3, ![128, 1, 128]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x8192x128, .f32⟩
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S128, .f32⟩
  | .local _ .vmem, ⟨6, _⟩ => ⟨S128x64x128, .f32⟩
  | .local _ .vmem, ⟨7, _⟩ => ⟨S128x64x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  transposes_S64x128_p1_0_S128x64 : S64x128.Transposes [1, 0] S128x64
  shapeCasts_S128x64_S128x64x1 : S128x64.ShapeCasts S128x64x1
  shapeCasts_S128x128_S128x1x128 : S128x128.ShapeCasts S128x1x128
  broadcasts_S128x64x1_S128x64x128 : S128x64x1.Broadcasts S128x64x128
  broadcasts_S128x1x128_S128x64x128 : S128x1x128.Broadcasts S128x64x128
  reduces_S128x64x128_S128x64 : S128x64x128.Reduces [2] S128x64
  shapeCasts_S128_S1x1x128 : S128.ShapeCasts S1x1x128
  broadcasts_S1x1x128_S128x64x128 : S1x1x128.Broadcasts S128x64x128
  inb_S128x64x128_S128x64x128_0_0_0 : ∀ a, (![0, 0, 0] : Fin 3 → Nat) a + S128x64x128.size a ≤ S128x64x128.size a
  h_S128x64x128 : 0 < S128x64x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S8192x128.size a
  hwx0_0 : ∀ i : grid0.Coords, EltTy.bits .f32 = 32 ∨ (Rect.block (s := S8192x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64x128.size a ≤ S128x8192x128.size a
  hwx0_5 : ∀ i : grid0.Coords, EltTy.bits .f32 = 32 ∨ (Rect.block (s := S128x8192x128) S128x64x128.size (cc0_transform_5 i) (hinb0_5 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S128 : Shape := ⟨1, ![128]⟩
abbrev S128x8192 : Shape := ⟨2, ![128, 8192]⟩
abbrev S128x8192x1 : Shape := ⟨3, ![128, 8192, 1]⟩
abbrev S128x1x128 : Shape := ⟨3, ![128, 1, 128]⟩
abbrev S128x8192x128 : Shape := ⟨3, ![128, 8192, 128]⟩
abbrev S_ : Shape := ⟨0, ![]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x8192, .f32⟩
  | .hbm, ⟨6, _⟩ => ⟨S128x8192x1, .f32⟩
  | .hbm, ⟨7, _⟩ => ⟨S128x1x128, .f32⟩
  | .hbm, ⟨8, _⟩ => ⟨S128x8192x128, .f32⟩
  | .hbm, ⟨9, _⟩ => ⟨S128x8192x128, .f32⟩
  | .hbm, ⟨10, _⟩ => ⟨S128x8192x128, .f32⟩
  | .hbm, ⟨11, _⟩ => ⟨S128x1x128, .f32⟩
  | .hbm, ⟨12, _⟩ => ⟨S128x8192x128, .f32⟩
  | .hbm, ⟨13, _⟩ => ⟨S128x8192x128, .f32⟩
  | .hbm, ⟨14, _⟩ => ⟨S_, .f32⟩
  | .hbm, ⟨15, _⟩ => ⟨S128x8192, .f32⟩
  | .hbm, ⟨16, _⟩ => ⟨S128x8192x1, .f32⟩
  | .hbm, ⟨17, _⟩ => ⟨S_, .f32⟩
  | .hbm, ⟨18, _⟩ => ⟨S128x8192x1, .f32⟩
  | .hbm, ⟨19, _⟩ => ⟨S128x8192x1, .f32⟩
  | .hbm, ⟨20, _⟩ => ⟨S128x8192x128, .f32⟩
  | .hbm, ⟨21, _⟩ => ⟨S128x8192x128, .f32⟩
  | .hbm, ⟨22, _⟩ => ⟨S128x8192x128, .f32⟩
  | .hbm, ⟨23, _⟩ => ⟨S_, .f32⟩
  | .hbm, ⟨24, _⟩ => ⟨S128x8192, .f32⟩
  | .hbm, ⟨25, _⟩ => ⟨S128x8192x1, .f32⟩
  | .hbm, ⟨26, _⟩ => ⟨S_, .f32⟩
  | .hbm, ⟨27, _⟩ => ⟨S128x8192x1, .f32⟩
  | .hbm, ⟨28, _⟩ => ⟨S128x8192x1, .f32⟩
  | .hbm, ⟨29, _⟩ => ⟨S128x8192x128, .f32⟩
  | .hbm, ⟨30, _⟩ => ⟨S128x8192x128, .f32⟩
  | .hbm, ⟨31, _⟩ => ⟨S_, .f32⟩
  | .hbm, ⟨32, _⟩ => ⟨S128x8192x1, .f32⟩
  | .hbm, ⟨33, _⟩ => ⟨S128x8192x1, .f32⟩
  | .hbm, ⟨34, _⟩ => ⟨S128x8192x1, .f32⟩
  | .hbm, ⟨35, _⟩ => ⟨S128x8192x128, .f32⟩
  | .hbm, ⟨36, _⟩ => ⟨S128x8192x128, .f32⟩
  | .hbm, ⟨37, _⟩ => ⟨S1x1x128, .f32⟩
  | .hbm, ⟨38, _⟩ => ⟨S128x8192x128, .f32⟩
  | .hbm, ⟨39, _⟩ => ⟨S128x8192x128, .f32⟩
  | .hbm, ⟨40, _⟩ => ⟨S1x1x128, .f32⟩
  | .hbm, ⟨41, _⟩ => ⟨S128x8192x128, .f32⟩
  | .hbm, ⟨42, _⟩ => ⟨S128x8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S128x8192_S128x8192x1_0_1 : S128x8192.BroadcastsInDim S128x8192x1 (![0, 1] : Fin 2 → Fin S128x8192x1.rank)
  bcast_S128x128_S128x1x128_0_2 : S128x128.BroadcastsInDim S128x1x128 (![0, 2] : Fin 2 → Fin S128x1x128.rank)
  bcast_S128x8192x1_S128x8192x128_0_1_2 : S128x8192x1.BroadcastsInDim S128x8192x128 (![0, 1, 2] : Fin 3 → Fin S128x8192x128.rank)
  bcast_S128x1x128_S128x8192x128_0_1_2 : S128x1x128.BroadcastsInDim S128x8192x128 (![0, 1, 2] : Fin 3 → Fin S128x8192x128.rank)
  reducesTo_S128x8192x128_S128x8192_d2 : S128x8192x128.ReducesTo [2] S128x8192
  h_S_ : 0 < S_.numel
  bcast_S_S128x8192x1 : S_.BroadcastsInDim S128x8192x1 (![] : Fin 0 → Fin S128x8192x1.rank)
  bcast_S128_S1x1x128_2 : S128.BroadcastsInDim S1x1x128 (![2] : Fin 1 → Fin S1x1x128.rank)
  bcast_S1x1x128_S128x8192x128_0_1_2 : S1x1x128.BroadcastsInDim S128x8192x128 (![0, 1, 2] : Fin 3 → Fin S128x8192x128.rank)

variable [Facts₀]

class Facts : Prop extends Facts₀ where

variable [Facts]
-- ==== Proof.Spec.lean ====
/-
  Per-feature embedding followed by a layer normalisation over the embedding axis, as ONE function of the five argument
  arrays, index by index, on the extended reals.

  For a batch `x : [b, a]` (row `j`, feature `i`), per-feature weights and biases `W, B : [a, c]`, a scale `g : [c]` and a
  shift `β : [c]`, with `n` the divisor of the two means and `ε` the stabiliser under the root:

      emb  i j k = x[j, i] · W[i, k] + B[i, k]
      mean i j   = (Σ_k emb i j k) / n
      dev  i j k = emb i j k − mean i j
      var  i j   = (Σ_k dev i j k · dev i j k) / n
      out  i j k = dev i j k · rsqrt (var i j + ε) · g[k] + β[k]

  Entry `(i, j, k)` reads `x` only in its row `j`; so a band of rows of `x` gives the same band of rows of the result
  (`normed_congr`): this is what lets the batch axis be tiled freely. Quotient and reciprocal root are the extended
  reals' (`Ideal.div`, `Ideal.rsqrt`); no law of arithmetic is used, only that equal operands give equal results.
-/
import Idealize.ShloMosaic.PureOps.Ideal
import Idealize.ShloMosaic.Lib.ValueIdx

noncomputable section

open scoped BigOperators

namespace Cert.FeatureNorm

open Idealize.ShloMosaic Idealize.ShloMosaic.ValueIdx

variable {a b b' c : ℕ}

/-- The divisor both programs use for the two means: the float word of 128, the length of the embedding axis. -/
abbrev width : EReal := Ideal.ofBits .f32 0x43000000#32

/-- The stabiliser both programs add under the root: the float word nearest 1e-5. -/
abbrev eps : EReal := Ideal.ofBits .f32 0x3727C5AC#32

/-- The embedding of feature `i` of batch row `j`, at embedding coordinate `k`. -/
def emb (x : (⟨2, ![b, a]⟩ : Shape).Idx → EReal) (W B : (⟨2, ![a, c]⟩ : Shape).Idx → EReal)
    (i : Fin a) (j : Fin b) (k : Fin c) : EReal :=
  x (ix2 j i) * W (ix2 i k) + B (ix2 i k)

/-- Its mean over the embedding axis: the sum over `k` divided by `n`. -/
def mean (x : (⟨2, ![b, a]⟩ : Shape).Idx → EReal) (W B : (⟨2, ![a, c]⟩ : Shape).Idx → EReal) (n : EReal)
    (i : Fin a) (j : Fin b) : EReal :=
  Ideal.div (∑ k : Fin c, emb x W B i j k) n

/-- The deviation from that mean. -/
def dev (x : (⟨2, ![b, a]⟩ : Shape).Idx → EReal) (W B : (⟨2, ![a, c]⟩ : Shape).Idx → EReal) (n : EReal)
    (i : Fin a) (j : Fin b) (k : Fin c) : EReal :=
  emb x W B i j k - mean x W B n i j

/-- The variance: the mean of the squared deviations. -/
def var (x : (⟨2, ![b, a]⟩ : Shape).Idx → EReal) (W B : (⟨2, ![a, c]⟩ : Shape).Idx → EReal) (n : EReal)
    (i : Fin a) (j : Fin b) : EReal :=
  Ideal.div (∑ k : Fin c, dev x W B n i j k * dev x W B n i j k) n

/-- The normalised, scaled and shifted embedding. -/
def normed (x : (⟨2, ![b, a]⟩ : Shape).Idx → EReal) (W B : (⟨2, ![a, c]⟩ : Shape).Idx → EReal)
    (g β : (⟨1, ![c]⟩ : Shape).Idx → EReal) (n ε : EReal) (i : Fin a) (j : Fin b) (k : Fin c) : EReal :=
  dev x W B n i j k * Ideal.rsqrt (var x W B n i j + ε) * g (ix1 k) + β (ix1 k)

/-- The whole `[a, b, c]` result, index by index. -/
def whole (x : (⟨2, ![b, a]⟩ : Shape).Idx → EReal) (W B : (⟨2, ![a, c]⟩ : Shape).Idx → EReal)
    (g β : (⟨1, ![c]⟩ : Shape).Idx → EReal) (n ε : EReal) : (⟨3, ![a, b, c]⟩ : Shape).Idx → EReal :=
  fun y => normed x W B g β n ε (y 0) (y 1) (y 2)

theorem whole_apply (x : (⟨2, ![b, a]⟩ : Shape).Idx → EReal) (W B : (⟨2, ![a, c]⟩ : Shape).Idx → EReal)
    (g β : (⟨1, ![c]⟩ : Shape).Idx → EReal) (n ε : EReal) (i : Fin a) (j : Fin b) (k : Fin c) :
    whole x W B g β n ε (ix3 i j k) = normed x W B g β n ε i j k := rfl

/-! ## Only row `j` of the batch is read -/

section Rows

variable {x : (⟨2, ![b, a]⟩ : Shape).Idx → EReal} {x' : (⟨2, ![b', a]⟩ : Shape).Idx → EReal}
  (W B : (⟨2, ![a, c]⟩ : Shape).Idx → EReal) (g β : (⟨1, ![c]⟩ : Shape).Idx → EReal) (n ε : EReal)
  {j : Fin b} {j' : Fin b'}

/-- Two batches that agree on one row (row `j` of the first is row `j'` of the second) have the same embedding there, -/
theorem emb_congr (h : ∀ i, x (ix2 j i) = x' (ix2 j' i)) (i : Fin a) (k : Fin c) :
    emb x W B i j k = emb x' W B i j' k := by
  unfold emb; rw [h i]

/-- the same mean, -/
theorem mean_congr (h : ∀ i, x (ix2 j i) = x' (ix2 j' i)) (i : Fin a) :
    mean x W B n i j = mean x' W B n i j' := by
  unfold mean
  exact congrArg (fun s => Ideal.div s n) (Finset.sum_congr rfl fun k _ => emb_congr W B h i k)

/-- the same deviations, -/
theorem dev_congr (h : ∀ i, x (ix2 j i) = x' (ix2 j' i)) (i : Fin a) (k : Fin c) :
    dev x W B n i j k = dev x' W B n i j' k := by
  unfold dev; rw [emb_congr W B h i k, mean_congr W B n h i]

/-- the same variance, -/
theorem var_congr (h : ∀ i, x (ix2 j i) = x' (ix2 j' i)) (i : Fin a) :
    var x W B n i j = var x' W B n i j' := by
  unfold var
  exact congrArg (fun s => Ideal.div s n) (Finset.sum_congr rfl fun k _ => by rw [dev_congr W B n h i k])

/-- and the same result. -/
theorem normed_congr (h : ∀ i, x (ix2 j i) = x' (ix2 j' i)) (i : Fin a) (k : Fin c) :
    normed x W B g β n ε i j k = normed x' W B g β n ε i j' k := by
  unfold normed; rw [dev_congr W B n h i k, var_congr W B n h i]

end Rows

end Cert.FeatureNorm

end
-- ==== Proof.LibOuterPair.lean ====
/-
  General lemmas for kernels that pair every row of one matrix with every row of another ("outer" broadcasting:
  `x[:, None, :]` against `y[None, :, :]`) and reduce the paired values over the shared last axis.

  • Layout, read at an index written by coordinates: an `[a, c]` array cast to `[a, 1, c]`
    (`shapeCast_ac_a1c_apply`); an `[a, 1, c]` array broadcast to `[a, b, c]` (`broadcastTo_a1c_abc_apply`: the
    middle coordinate is forgotten); a `[1, b, c]` array broadcast to `[a, b, c]` (`broadcastTo_1bc_abc_apply`:
    the leading coordinate is forgotten).
  • A float add-reduction of an `[a, b, c]` vector over its last axis, on the extended reals, read at `(i, j)`: the
    sum over `k` of the source at `(i, j, k)` (`multiReduction_add_last3`).
  • Order on the extended reals: a square is never negative, at the two infinities too (`⊥ · ⊥ = ⊤ · ⊤ = ⊤`), so a
    finite sum of squares is never negative and its maximum with zero is the sum itself
    (`ereal_mul_self_nonneg`, `sum_mul_self_nonneg`, `max_sum_mul_self_zero`). No finiteness is asked.
-/
import Idealize.ShloMosaic.Lib.ValueLayout
import Idealize.ShloMosaic.PureOps.Ideal.Laws

open scoped BigOperators

namespace Cert.Lib.OuterPair

open Idealize.ShloMosaic Idealize.ShloMosaic.ValueIdx

variable {α : Type}

/-! ## A middle unit axis added by a shape cast, and the two broadcasts that fill a unit axis -/

/-- An `[a, c]` array cast to `[a, 1, c]` reads, at `(i, u, k)`, the operand at `(i, k)`: the two indices have the
    same row-major position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A sum over the last of three axes, read at an index -/

/-- On the extended reals a float add-reduction of an `[a, b, c]` vector over its last axis is, at `(i, j)`, the sum
    over `k` of the source at `(i, j, k)`: the reduced index with the coordinate `k` put back in last place. -/
theorem multiReduction_add_last3 {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-! ## Squares and their sums on the extended reals -/

/-- A square is never negative on the extended reals: a real's square is a real square, and both infinities square
    to `⊤`. -/
theorem ereal_mul_self_nonneg (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- So a finite sum of squares is never negative, -/
theorem sum_mul_self_nonneg {ι : Type} (s : Finset ι) (d : ι → EReal) : 0 ≤ ∑ k ∈ s, d k * d k :=
  Finset.sum_nonneg fun k _ => ereal_mul_self_nonneg (d k)

/-- and clamping it below at zero changes nothing. -/
theorem max_sum_mul_self_zero {ι : Type} (s : Finset ι) (d : ι → EReal) :
    max (∑ k ∈ s, d k * d k) 0 = ∑ k ∈ s, d k * d k :=
  max_eq_left (sum_mul_self_nonneg s d)

end Cert.Lib.OuterPair
-- ==== Proof.LibMiddleAxis.lean ====
/-
  Rank-3 forms met when a row vector and a matrix are laid against one another to be combined entry by entry and
  then summed over the shared axis: an [a, b] array given a trailing unit axis, [a, b, 1], and spread over a third
  axis, [a, b, c]; a [1, b, c] array spread over a new leading axis, [a, b, c]; and the sum of an [a, b, c] array over
  its MIDDLE axis, read at an entry of the [a, c] result as the finite sum over that axis's coordinates. Each is stated
  at coordinates, generic in the three sizes.
-/
import Idealize.ShloMosaic.Lib.Pipeline.Value
import Idealize.ShloMosaic.Lib.ValueIdx
import Idealize.ShloMosaic.PureOps.Ideal.Laws

namespace Cert.LibMiddleAxis

open Idealize.ShloMosaic Idealize.ShloMosaic.ValueIdx

variable {α : Type}

/-- An `[a, b]` array cast to `[a, b, 1]` reads, at `(i, j, u)`, the operand at `(i, j)`: the row-major position
    `(i·b + j)·1 + u` is `i·b + j`, the unit coordinate being zero. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the first two
    coordinates are kept (on an axis of size one they are zero already) and the unit axis is read at zero. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- On the extended reals, the add-reduction of an `[a, b, c]` array over its middle axis, from the neutral
    accumulator, is at `(i, k)` the sum over `j` of the entries `(i, j, k)`: the coordinate the reduction drops is put
    back between the two kept ones. -/
theorem sum_middle_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

end Cert.LibMiddleAxis
-- ==== Proof.LibLastAxisRow.lean ====
/-
  General lemmas for a row vector laid along the LAST axis of a rank-3 array and repeated over the two leading axes, the
  form an elementwise scale or shift per last-axis coordinate takes (`v[None, None, :]` against an `[a, b, c]` array):

  • a `[c]` vector cast to `[1, 1, c]` reads, at `(u, w, k)`, the operand at `k` (`shapeCast_c_11c_apply`): both
    indices have the row-major position `k`, the two unit coordinates being zero;
  • a `[1, 1, c]` array broadcast to `[a, b, c]` reads, at `(i, j, k)`, the operand at `(0, 0, k)`
    (`broadcastTo_11c_abc_apply`): the two leading coordinates are forgotten;
  • the two together (`lastAxisRow_apply`): the spread vector at `(i, j, k)` is the vector at `k`.
  Each is stated at coordinates and is generic in the three sizes and in the element type.
-/
import Idealize.ShloMosaic.Lib.Pipeline.Value
import Idealize.ShloMosaic.Lib.ValueIdx

namespace Cert.Lib.LastAxisRow

open Idealize.ShloMosaic Idealize.ShloMosaic.ValueIdx

variable {α : Type}

/-- A `[c]` vector cast to `[1, 1, c]` reads, at `(u, w, k)`, the operand at `k`: the row-major position
    `(u · 1 + w) · c + k` is `k`, both unit coordinates being zero. -/
theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_three, Shape.rowMajor_val_one]
    show k.val = (u.val * 1 + w.val) * c + k.val
    simp only [hu, hw, Nat.zero_mul, Nat.zero_add, Nat.mul_one, Nat.add_zero])

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[c]` vector laid along the last axis of an `[a, b, c]` array reads, at `(i, j, k)`, the vector at `k`. -/
theorem lastAxisRow_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix1 k) :=
  (broadcastTo_11c_abc_apply _ hb i j k).trans (shapeCast_c_11c_apply x hc 0 0 k)

end Cert.Lib.LastAxisRow
-- ==== Proof.Tile.lean ====
/-
  One grid point of the kernel, at the extended reals: the body's one store, read at an index `(i, j, k)` of the
  `[128, 64, 128]` output block, is the normalised embedding (`Cert.FeatureNorm.normed`) of the point's `[64, 128]` band of
  batch rows and of the four resident operands.

  The body's value is cut into its five stages — the embedding `x[j, i] · W[i, k] + B[i, k]` laid out by a transpose, two
  unit-axis casts and three broadcasts; its mean over the last axis (a lane sum, a unit-axis cast, a division by the splat
  128); the deviation; the variance likewise; and the scaled, shifted quotient by the root — and each stage is read at an
  index by the layout lemmas: a broadcast forgets the coordinate of the unit axis, a cast keeps the row-major position, the
  transpose swaps the two coordinates, and a lane sum from the neutral accumulator is the finite sum over the last coordinate.
-/
import proofs.«123755_j41068477284866_1_alg».proof.Proof.Gen.KernelIdeal.Skeleton
import proofs.«123755_j41068477284866_1_alg».proof.Proof.Spec
import proofs.«123755_j41068477284866_1_alg».proof.Proof.LibOuterPair
import proofs.«123755_j41068477284866_1_alg».proof.Proof.LibMiddleAxis
import proofs.«123755_j41068477284866_1_alg».proof.Proof.LibLastAxisRow
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.FeatureNorm
open Cert.Lib.OuterPair (shapeCast_ac_a1c_apply broadcastTo_a1c_abc_apply multiReduction_add_last3)
open Cert.LibMiddleAxis (shapeCast_ab_ab1_apply broadcastTo_ab1_abc_apply)
open Cert.Lib.LastAxisRow (lastAxisRow_apply)

variable (P0 : FVec Ideal S64x128 .f32) (P1 P2 : FVec Ideal S128x128 .f32) (P3 P4 : FVec Ideal S128 .f32)

/-! ## The five stages of the body's value -/

/-- The embedding tile: the band of batch rows transposed and spread over the embedding axis, times the weights spread
    over the batch axis, plus the biases spread likewise. -/
def embT : FVec Ideal S128x64x128 .f32 :=
  addf (mulf (broadcastTo S128x64x128 (shapeCast S128x64x1 (transpose S128x64 [1, 0] P0 transposes_S64x128_p1_0_S128x64) shapeCasts_S128x64_S128x64x1) broadcasts_S128x64x1_S128x64x128)
      (broadcastTo S128x64x128 (shapeCast S128x1x128 P1 shapeCasts_S128x128_S128x1x128) broadcasts_S128x1x128_S128x64x128))
    (broadcastTo S128x64x128 (shapeCast S128x1x128 P2 shapeCasts_S128x128_S128x1x128) broadcasts_S128x1x128_S128x64x128)

/-- Its mean over the embedding axis, kept as a column. -/
def meanT : FVec Ideal S128x64x1 .f32 :=
  divf (shapeCast S128x64x1 (multiReduction .add [2] S128x64 (embT P0 P1 P2) 0x00000000#32 reduces_S128x64x128_S128x64 (.inl rfl) rfl) shapeCasts_S128x64_S128x64x1)
    (broadcast S128x64x1 (Scalar.ofBits .f32 0x43000000#32))

/-- The deviation from the mean. -/
def devT : FVec Ideal S128x64x128 .f32 :=
  subf (embT P0 P1 P2) (broadcastTo S128x64x128 (meanT P0 P1 P2) broadcasts_S128x64x1_S128x64x128)

/-- The variance, kept as a column. -/
def varT : FVec Ideal S128x64x1 .f32 :=
  divf (shapeCast S128x64x1 (multiReduction .add [2] S128x64 (mulf (devT P0 P1 P2) (devT P0 P1 P2)) 0x00000000#32 reduces_S128x64x128_S128x64 (.inl rfl) rfl) shapeCasts_S128x64_S128x64x1)
    (broadcast S128x64x1 (Scalar.ofBits .f32 0x43000000#32))

/-- The stored value: the deviation times the reciprocal root of the stabilised variance, scaled and shifted along the
    embedding axis. -/
def outT : FVec Ideal S128x64x128 .f32 :=
  addf (mulf (mulf (devT P0 P1 P2)
        (broadcastTo S128x64x128 (rsqrt (addf (varT P0 P1 P2) (broadcast S128x64x1 (Scalar.ofBits .f32 0x3727C5AC#32)))) broadcasts_S128x64x1_S128x64x128))
      (broadcastTo S128x64x128 (shapeCast S1x1x128 P3 shapeCasts_S128_S1x1x128) broadcasts_S1x1x128_S128x64x128))
    (broadcastTo S128x64x128 (shapeCast S1x1x128 P4 shapeCasts_S128_S1x1x128) broadcasts_S1x1x128_S128x64x128)

/-- The body's stored value is these stages composed. -/
theorem pay_eq : k0_pay1 (F := Ideal) P0 P1 P2 P3 P4 = outT P0 P1 P2 P3 P4 := rfl

/-! ## Each stage at an index -/

variable (i : Fin 128) (j : Fin 64) (k : Fin 128)

/-- The embedding tile at `(i, j, k)` is row `j`, feature `i` of the band times the weight plus the bias at `(i, k)`. -/
theorem embT_apply : embT P0 P1 P2 (ix3 i j k) = emb P0 P1 P2 i j k := by
  unfold embT emb
  rw [addf_apply, mulf_apply, broadcastTo_ab1_abc_apply, shapeCast_ab_ab1_apply, transpose_ix2_apply,
    broadcastTo_a1c_abc_apply, shapeCast_ac_a1c_apply, broadcastTo_a1c_abc_apply, shapeCast_ac_a1c_apply]

/-- The mean column at `(i, j, ·)` is the sum of the embedding over the last coordinate, divided by 128. -/
theorem meanT_apply (u : Fin 1) : meanT P0 P1 P2 (ix3 i j u) = mean P0 P1 P2 width i j := by
  unfold meanT mean
  rw [divf_apply, shapeCast_ab_ab1_apply, broadcast_apply]
  refine congrArg₂ Ideal.div ?_ rfl
  refine (multiReduction_add_last3 (embT P0 P1 P2) _ _ _ _ i j).trans ?_
  exact Finset.sum_congr rfl fun k _ => embT_apply P0 P1 P2 i j k

/-- The deviation at `(i, j, k)`. -/
theorem devT_apply : devT P0 P1 P2 (ix3 i j k) = dev P0 P1 P2 width i j k := by
  unfold devT dev
  rw [subf_apply, embT_apply, broadcastTo_ab1_abc_apply, meanT_apply]

/-- The variance column at `(i, j, ·)` is the sum of the squared deviations over the last coordinate, divided by 128. -/
theorem varT_apply (u : Fin 1) : varT P0 P1 P2 (ix3 i j u) = var P0 P1 P2 width i j := by
  unfold varT var
  rw [divf_apply, shapeCast_ab_ab1_apply, broadcast_apply]
  refine congrArg₂ Ideal.div ?_ rfl
  refine (multiReduction_add_last3 (mulf (devT P0 P1 P2) (devT P0 P1 P2)) _ _ _ _ i j).trans ?_
  refine Finset.sum_congr rfl fun k _ => ?_
  rw [mulf_apply, devT_apply]

/-- The stored value at `(i, j, k)` is the normalised embedding of the band. -/
theorem outT_apply : outT P0 P1 P2 P3 P4 (ix3 i j k) = normed P0 P1 P2 P3 P4 width eps i j k := by
  unfold outT normed
  rw [addf_apply, mulf_apply, mulf_apply, devT_apply, broadcastTo_ab1_abc_apply, lastAxisRow_apply, lastAxisRow_apply]
  show _ * Ideal.rsqrt (varT P0 P1 P2 (ix3 i j (0 : Fin 1)) + _) * _ + _ = _
  rw [varT_apply]
  rfl

/-- So the body's store, at `(i, j, k)` of the output block, holds the normalised embedding of the point's operands. -/
theorem pay_apply : k0_pay1 (F := Ideal) P0 P1 P2 P3 P4 (ix3 i j k) = normed P0 P1 P2 P3 P4 width eps i j k := by
  rw [pay_eq]; exact outT_apply P0 P1 P2 P3 P4 i j k

/-- The same at any index of the block, by its three coordinates. -/
theorem pay_at (y : S128x64x128.Idx) :
    k0_pay1 (F := Ideal) P0 P1 P2 P3 P4 y = normed P0 P1 P2 P3 P4 width eps (y 0) (y 1) (y 2) :=
  (congrArg (k0_pay1 (F := Ideal) P0 P1 P2 P3 P4) (eq_ix3 y)).trans (pay_apply P0 P1 P2 P3 P4 (y 0) (y 1) (y 2))

end Cert.KernelIdeal.Tile

end
-- ==== Proof.KernelValue.lean ====
/-
  The kernel's whole result, at the extended reals. The grid runs over the 128 bands of 64 batch rows; point `t` is handed
  rows `64 t … 64 t + 63` of the batch, all of the weights, biases, scale and shift, and writes the `[128, 64, 128]` block of
  the result whose middle coordinate runs over the same band. Since entry `(i, j, k)` of the normalised embedding reads the
  batch only in its row `j` (`Cert.FeatureNorm.normed_congr`), what point `t` writes is block `t` of the whole-array function
  `Cert.FeatureNorm.whole` of the argument arrays; the 128 blocks tile the result (row `r` lies in the block of point
  `r / 64`), so after the run the result array holds that function everywhere.
-/
import proofs.«123755_j41068477284866_1_alg».proof.Proof.Gen.KernelIdeal.Value
import proofs.«123755_j41068477284866_1_alg».proof.Proof.Tile
import proofs.«123755_j41068477284866_1_alg».proof.Proof.Spec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.FeatureNorm
open Idealize.ShloMosaic.Pipeline (Dat)

variable (m : (ℓ : Loc nD τ sig) → Buf (Elt Ideal) ℓ) (ρ : Dev nD → PrngReg)

/-! ## The argument arrays, and the function of them the result holds -/

/-- The batch, `[8192, 128]`, as the region finds it. -/
abbrev batch (c : Dev nD) : S8192x128.Idx → EReal := V m c main_arg0
/-- The per-feature weights, `[128, 128]`. -/
abbrev weight (c : Dev nD) : S128x128.Idx → EReal := V m c main_arg1
/-- The per-feature biases, `[128, 128]`. -/
abbrev bias (c : Dev nD) : S128x128.Idx → EReal := V m c main_arg2
/-- The scale along the embedding axis, `[128]`. -/
abbrev scale (c : Dev nD) : S128.Idx → EReal := V m c main_arg3
/-- The shift along the embedding axis, `[128]`. -/
abbrev shift (c : Dev nD) : S128.Idx → EReal := V m c main_arg4

/-- The normalised embedding of the argument arrays, `[128, 8192, 128]`. -/
def result (c : Dev nD) : S128x8192x128.Idx → EReal :=
  whole (a := 128) (b := 8192) (c := 128) (batch m c) (weight m c) (bias m c) (scale m c) (shift m c) width eps

/-! ## Where the windows' blocks lie -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 128 points: the batch window and the result window move with the point
    along the batch axis, and the four resident windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 3) = 0 ∧ win0_5.index t (1 : Fin 3) = t.val ∧ win0_5.index t (2 : Fin 3) = 0 :=
  (by decide +kernel : ∀ t : Fin grid0.N, _)

/-- Row `j` of the batch block at point `t` is row `64 t + j` of the batch. -/
theorem batch_block (c : Dev nD) (t : Fin cfg0.N) (j : Fin 64) (i : Fin 128) (j' : Fin 8192) (hj : j'.val = 64 * t.val + j.val) :
    (iblk m c 0 t : S64x128.Idx → EReal) (ix2 j i) = batch m c (ix2 j' i) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 64 + 1 * j.val = j'.val; rw [e0, hj]; omega
  | ⟨1, _⟩ => show win0_0.index t (1 : Fin 2) * 128 + 1 * i.val = i.val; rw [e1]; omega

/-- The weight block at every point is the whole weight array, -/
theorem weight_block (c : Dev nD) (t : Fin cfg0.N) : (iblk m c 1 t : S128x128.Idx → EReal) = weight m c := by
  obtain ⟨-, -, e0, e1, -⟩ := idx_facts t
  funext x
  unfold iblk
  rw [View.read_apply]
  show V m c main_arg1 _ = V m c main_arg1 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- the bias block the whole bias array, -/
theorem bias_block (c : Dev nD) (t : Fin cfg0.N) : (iblk m c 2 t : S128x128.Idx → EReal) = bias m c := by
  obtain ⟨-, -, -, -, e0, e1, -⟩ := idx_facts t
  funext x
  unfold iblk
  rw [View.read_apply]
  show V m c main_arg2 _ = V m c main_arg2 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- the scale block the whole scale vector, -/
theorem scale_block (c : Dev nD) (t : Fin cfg0.N) : (iblk m c 3 t : S128.Idx → EReal) = scale m c := by
  obtain ⟨-, -, -, -, -, -, e0, -⟩ := idx_facts t
  funext x
  unfold iblk
  rw [View.read_apply]
  show V m c main_arg3 _ = V m c main_arg3 _
  congr 1
  funext a
  apply Fin.ext
  match a with
  | ⟨0, _⟩ => show win0_3.index t (0 : Fin 1) * 128 + 1 * (x 0).val = (x 0).val; rw [e0]; omega

/-- and the shift block the whole shift vector. -/
theorem shift_block (c : Dev nD) (t : Fin cfg0.N) : (iblk m c 4 t : S128.Idx → EReal) = shift m c := by
  obtain ⟨-, -, -, -, -, -, -, e0, -⟩ := idx_facts t
  funext x
  unfold iblk
  rw [View.read_apply]
  show V m c main_arg4 _ = V m c main_arg4 _
  congr 1
  funext a
  apply Fin.ext
  match a with
  | ⟨0, _⟩ => show win0_4.index t (0 : Fin 1) * 128 + 1 * (x 0).val = (x 0).val; rw [e0]; omega

/-! ## What a point writes -/

/-- The normalised embedding of point `t`'s blocks at `(i, j, k)` is that of the argument arrays at `(i, 64 t + j, k)`:
    the resident blocks are the arrays, and only row `j` of the band is read. -/
theorem point_eq (c : Dev nD) (t : Fin cfg0.N) (i : Fin 128) (j : Fin 64) (k : Fin 128) (i' : Fin 128) (j' : Fin 8192) (k' : Fin 128)
    (hi : i'.val = i.val) (hj : j'.val = 64 * t.val + j.val) (hk : k'.val = k.val) :
    normed (iblk m c 0 t : S64x128.Idx → EReal) (iblk m c 1 t : S128x128.Idx → EReal) (iblk m c 2 t : S128x128.Idx → EReal)
        (iblk m c 3 t : S128.Idx → EReal) (iblk m c 4 t : S128.Idx → EReal) width eps i j k
      = normed (batch m c) (weight m c) (bias m c) (scale m c) (shift m c) width eps i' j' k' := by
  obtain rfl : i' = i := Fin.ext hi
  obtain rfl : k' = k := Fin.ext hk
  rw [weight_block m c t, bias_block m c t, scale_block m c t, shift_block m c t]
  exact normed_congr (weight m c) (bias m c) (scale m c) (shift m c) width eps
    (fun i₀ => batch_block m c t j i₀ j' hj) i' k'

/-- WHAT POINT `t` WRITES BACK is block `t` of `result`. -/
theorem flushed_eq (c : Dev nD) (t : Fin cfg0.N) :
    (dats m 0 c).flushed 5 t = ((cfg0.win 5).blk t).view.read (Elt Ideal) (result m c) := by
  obtain ⟨-, -, -, -, -, -, -, -, e0, e1, e2⟩ := idx_facts t
  rw [Cert.KernelIdeal.Value.flushed5]
  unfold out0_5
  rw [View.canon_unit_zero hz3]
  simp only [View.ld_unit_zero (S := S64x128) hz2, View.ld_unit_zero (S := S128x128) hz2, View.ld_unit_zero (S := S128) hz1]
  funext y
  show k0_pay1 (F := Ideal) (iblk m c 0 t) (iblk m c 1 t) (iblk m c 2 t) (iblk m c 3 t) (iblk m c 4 t) y
    = result m c (((cfg0.win 5).blk t).view.emb y)
  refine (Tile.pay_at (iblk m c 0 t) (iblk m c 1 t) (iblk m c 2 t) (iblk m c 3 t) (iblk m c 4 t) y).trans ?_
  refine point_eq m c t (y 0) (y 1) (y 2) _ _ _ ?_ ?_ ?_
  · show win0_5.index t (0 : Fin 3) * 128 + 1 * (y 0).val = (y 0).val; rw [e0]; omega
  · show win0_5.index t (1 : Fin 3) * 64 + 1 * (y 1).val = 64 * t.val + (y 1).val; rw [e1]; omega
  · show win0_5.index t (2 : Fin 3) * 128 + 1 * (y 2).val = (y 2).val; rw [e2]; omega

/-! ## The blocks tile the result -/

/-- An index of the result is in point `t`'s block iff each coordinate is in the block's range on its axis. -/
theorem mem_blk (t : Fin cfg0.N) (i : S128x8192x128.Idx) :
    i ∈ ((cfg0.win 5).blk t).view.set ↔ ∀ a : Fin 3, win0_5.index t a * S128x64x128.size a ≤ (i a).val
      ∧ (i a).val < win0_5.index t a * S128x64x128.size a + S128x64x128.size a := by
  show i ∈ ((View.whole main_v0).slice (win0_5.rect t)).set ↔ _
  rw [View.set_slice_whole, Rect.mem_set_unit]
  exact Iff.rfl

/-- Every index of the result lies in the block of the point its batch row's band names. -/
theorem covered (i : S128x8192x128.Idx) :
    ∃ t : Fin cfg0.N, (cfg0.win 5).flush t = true ∧ i ∈ ((cfg0.win 5).blk t).view.set := by
  have h0 : (i 0).val < 128 := (i 0).isLt
  have h1 : (i 1).val < 8192 := (i 1).isLt
  have h2 : (i 2).val < 128 := (i 2).isLt
  obtain ⟨t, ht⟩ : ∃ t : Fin cfg0.N, t.val = (i 1).val / 64 :=
    ⟨⟨(i 1).val / 64, by rw [show cfg0.N = 128 from N_0]; omega⟩, rfl⟩
  obtain ⟨-, -, -, -, -, -, -, -, e0, e1, e2⟩ := idx_facts t
  refine ⟨t, flush0_5 t, ?_⟩
  rw [mem_blk]
  intro a
  match a with
  | ⟨0, _⟩ => show win0_5.index t (0 : Fin 3) * 128 ≤ (i 0).val ∧ (i 0).val < win0_5.index t (0 : Fin 3) * 128 + 128; rw [e0]; omega
  | ⟨1, _⟩ => show win0_5.index t (1 : Fin 3) * 64 ≤ (i 1).val ∧ (i 1).val < win0_5.index t (1 : Fin 3) * 64 + 64; rw [e1, ht]; omega
  | ⟨2, _⟩ => show win0_5.index t (2 : Fin 3) * 128 ≤ (i 2).val ∧ (i 2).val < win0_5.index t (2 : Fin 3) * 128 + 128; rw [e2]; omega

/-- THE RESULT ARRAY after the run is `result`. -/
theorem final (c : Dev nD) : (dats m 0 c).arrAt 5 cfg0.N = result m c :=
  (dats m 0 c).arrAt_eq_of_cover 5 (result m c) (fun t _ => flushed_eq m c t) (fun i => covered i)

/-! ## The run, read -/

/-- Every weakly fair execution of the kernel's program ends with the result array at `result` and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefValue.lean ====
/-
  The reference, at the extended reals: the host program's result, read at an index `(i, j, k)` of the `[128, 8192, 128]`
  array, is the normalised embedding (`Cert.FeatureNorm.normed`) of the five argument arrays.

  The program is read one operation at a time through its stages: every `broadcast_in_dim` forgets the coordinate of the
  axis it fills or keeps the coordinates it copies, the transpose swaps the two coordinates of the batch, and each of the
  two sums over the last axis is its zero initial value plus the finite sum over the last coordinate. The stages are
  gathered in the order of the mathematics: the embedding, its mean (kept with a trailing unit axis), the deviation, the
  variance, the result.
-/
import proofs.«123755_j41068477284866_1_alg».proof.Proof.Gen.ReferenceIdeal.Read
import proofs.«123755_j41068477284866_1_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.FeatureNorm

variable (x0 : (⟨S8192x128, .f32⟩ : BufTy).Contents (Elt Ideal)) (x1 x2 : (⟨S128x128, .f32⟩ : BufTy).Contents (Elt Ideal))
  (x3 x4 : (⟨S128, .f32⟩ : BufTy).Contents (Elt Ideal))
variable (i : Fin 128) (j : Fin 8192) (k : Fin 128)

/-! ## Where each stage reads its operand -/

/-- The batch is read at row `j`, feature `i`: the trailing unit axis and the spread over `k` are forgotten, the
    transpose swaps the two coordinates left. -/
theorem idx_batch : idx_main_v0 (idx_main_v1 (idx_main_v3 (ix3 i j k))) = ix2 j i :=
  funext fun a => Fin.ext (by match a with | ⟨0, _⟩ => rfl | ⟨1, _⟩ => rfl)

/-- The weights are read at `(i, k)`: the middle unit axis and the spread over `j` are forgotten. -/
theorem idx_weight : idx_main_v2 (idx_main_v4 (ix3 i j k)) = ix2 i k :=
  funext fun a => Fin.ext (by match a with | ⟨0, _⟩ => rfl | ⟨1, _⟩ => rfl)

/-- The biases likewise. -/
theorem idx_bias : idx_main_v6 (idx_main_v7 (ix3 i j k)) = ix2 i k :=
  funext fun a => Fin.ext (by match a with | ⟨0, _⟩ => rfl | ⟨1, _⟩ => rfl)

/-- The scale is read at `k`: both leading axes are forgotten. -/
theorem idx_scale : idx_main_v27 (idx_main_v28 (ix3 i j k)) = ix1 k :=
  funext fun a => Fin.ext (by match a with | ⟨0, _⟩ => rfl)

/-- The shift likewise. -/
theorem idx_shift : idx_main_v30 (idx_main_v31 (ix3 i j k)) = ix1 k :=
  funext fun a => Fin.ext (by match a with | ⟨0, _⟩ => rfl)

/-! ## The stages at an index -/

/-- The embedding at `(i, j, k)`. -/
theorem emb_apply : val_main_v8 (F := Ideal) x0 x1 x2 (ix3 i j k) = emb x0 x1 x2 i j k := by
  rw [val_main_v8_apply, val_main_v5_apply, val_main_v3_apply, val_main_v1_apply, val_main_v0_apply, val_main_v4_apply,
    val_main_v2_apply, val_main_v7_apply, val_main_v6_apply, idx_batch, idx_weight, idx_bias]
  rfl

/-- The mean, kept with a trailing unit axis: zero plus the sum of the embedding over the last coordinate, divided by
    128. -/
theorem mean_apply (u : Fin 1) : val_main_v12 (F := Ideal) x0 x1 x2 (ix3 i j u) = mean x0 x1 x2 width i j := by
  have e : ∀ k : Fin 128, idx_main_v9 (idx_main_v10 (ix3 i j u)) k = ix3 i j k := fun k =>
    funext fun a => Fin.ext (by match a with | ⟨0, _⟩ => rfl | ⟨1, _⟩ => rfl | ⟨2, _⟩ => rfl)
  rw [val_main_v12_apply, val_main_v10_apply, val_main_v9_apply, val_main_v11_apply, val_main_cst_0_apply, val_main_cst_apply]
  simp only [e, emb_apply]
  rw [Ideal.ofBits_def, Ideal.ofBits_zero_f32, zero_add]
  rfl

/-- The deviation, as the variance reads it. -/
theorem dev_apply : val_main_v14 (F := Ideal) x0 x1 x2 (ix3 i j k) = dev x0 x1 x2 width i j k := by
  have e : idx_main_v13 (ix3 i j k) = ix3 i j (0 : Fin 1) :=
    funext fun a => Fin.ext (by match a with | ⟨0, _⟩ => rfl | ⟨1, _⟩ => rfl | ⟨2, _⟩ => rfl)
  rw [val_main_v14_apply, val_main_v13_apply, e, emb_apply, mean_apply]
  rfl

/-- The deviation again, as the result reads it (the program subtracts the mean a second time). -/
theorem dev_apply' : val_main_v21 (F := Ideal) x0 x1 x2 (ix3 i j k) = dev x0 x1 x2 width i j k := by
  have e : idx_main_v20 (ix3 i j k) = ix3 i j (0 : Fin 1) :=
    funext fun a => Fin.ext (by match a with | ⟨0, _⟩ => rfl | ⟨1, _⟩ => rfl | ⟨2, _⟩ => rfl)
  rw [val_main_v21_apply, val_main_v20_apply, e, emb_apply, mean_apply]
  rfl

/-- The variance, kept with a trailing unit axis: zero plus the sum of the squared deviations, divided by 128. -/
theorem var_apply (u : Fin 1) : val_main_v19 (F := Ideal) x0 x1 x2 (ix3 i j u) = var x0 x1 x2 width i j := by
  have e : ∀ k : Fin 128, idx_main_v16 (idx_main_v17 (ix3 i j u)) k = ix3 i j k := fun k =>
    funext fun a => Fin.ext (by match a with | ⟨0, _⟩ => rfl | ⟨1, _⟩ => rfl | ⟨2, _⟩ => rfl)
  rw [val_main_v19_apply, val_main_v17_apply, val_main_v16_apply, val_main_v18_apply, val_main_cst_2_apply, val_main_cst_1_apply]
  simp only [e, val_main_v15_apply, dev_apply]
  rw [Ideal.ofBits_def, Ideal.ofBits_zero_f32, zero_add]
  rfl

/-- The result at `(i, j, k)` is the normalised embedding of the arguments. -/
theorem result_apply : val_main_v32 (F := Ideal) x0 x1 x2 x3 x4 (ix3 i j k) = normed x0 x1 x2 x3 x4 width eps i j k := by
  have e : idx_main_v25 (ix3 i j k) = ix3 i j (0 : Fin 1) :=
    funext fun a => Fin.ext (by match a with | ⟨0, _⟩ => rfl | ⟨1, _⟩ => rfl | ⟨2, _⟩ => rfl)
  rw [val_main_v32_apply, val_main_v29_apply, val_main_v26_apply, dev_apply', val_main_v25_apply, e, val_main_v24_apply,
    val_main_v23_apply, var_apply, val_main_v22_apply, val_main_cst_3_apply, val_main_v28_apply, val_main_v27_apply,
    val_main_v31_apply, val_main_v30_apply, idx_scale, idx_shift]
  rfl

/-- So the reference's result array is the whole normalised embedding. -/
theorem result_eq : val_main_v32 (F := Ideal) x0 x1 x2 x3 x4 = whole x0 x1 x2 x3 x4 width eps := by
  funext y
  obtain ⟨i, j, k, rfl⟩ : ∃ (i : Fin 128) (j : Fin 8192) (k : Fin 128), y = ix3 i j k := ⟨y 0, y 1, y 2, eq_ix3 y⟩
  exact result_apply x0 x1 x2 x3 x4 i j k

end Cert.ReferenceIdeal.RefValue

end
-- ==== Proof.lean ====
/-
  A per-feature embedding with a layer normalisation, tiled over the batch, against the same computation on whole arrays.

  Both programs take a batch `x : [8192, 128]`, per-feature weights and biases `W, B : [128, 128]`, a scale `g : [128]` and a
  shift `β : [128]`, and return the `[128, 8192, 128]` array

      out[i, j, k] = (e[i, j, k] − μ[i, j]) · rsqrt (σ²[i, j] + ε) · g[k] + β[k],
      e[i, j, k] = x[j, i] · W[i, k] + B[i, k],   μ = (Σ_k e) / 128,   σ² = (Σ_k (e − μ)²) / 128,

  with the same float words for 128 and for ε on both sides. The kernel walks the batch in 128 bands of 64 rows and
  computes each band's `[128, 64, 128]` block from the band and the four resident operands; the reference computes the whole
  array at once. On the extended reals the two are the same function of the arguments, operation for operation: no law of
  arithmetic is needed, only that entry `(i, j, k)` reads the batch in its row `j` alone, so the tiling of the batch axis
  changes nothing. Hence the precondition (finite inputs) is never opened.

  • The kernel's result array after its run is `Cert.KernelIdeal.Whole.result` (each point writes its block of that
    function, and the blocks tile the array).
  • The reference's result is the same function of its arguments (`Cert.ReferenceIdeal.RefValue.result_eq`).
  • The three frames are the generated runs; the idealisation rewrote nothing, so `preserves` is trivial.
-/
import proofs.«123755_j41068477284866_1_alg».proof.Defs
import proofs.«123755_j41068477284866_1_alg».proof.Proof.Gen.Kernel
import proofs.«123755_j41068477284866_1_alg».proof.Proof.Gen.Kernel.Skeleton
import proofs.«123755_j41068477284866_1_alg».proof.Proof.Gen.Kernel.Launch
import proofs.«123755_j41068477284866_1_alg».proof.Proof.Gen.Kernel.Points
import proofs.«123755_j41068477284866_1_alg».proof.Proof.Gen.Kernel.Frame
import proofs.«123755_j41068477284866_1_alg».proof.Proof.Gen.KernelIdeal
import proofs.«123755_j41068477284866_1_alg».proof.Proof.Gen.KernelIdeal.Skeleton
import proofs.«123755_j41068477284866_1_alg».proof.Proof.Gen.KernelIdeal.Launch
import proofs.«123755_j41068477284866_1_alg».proof.Proof.Gen.KernelIdeal.Points
import proofs.«123755_j41068477284866_1_alg».proof.Proof.Gen.KernelIdeal.Frame
import proofs.«123755_j41068477284866_1_alg».proof.Proof.Gen.ReferenceIdeal
import proofs.«123755_j41068477284866_1_alg».proof.Proof.Gen.Pre_finite_inputs
import proofs.«123755_j41068477284866_1_alg».proof.Proof.Gen.KernelIdeal.Value
import proofs.«123755_j41068477284866_1_alg».proof.Proof.Gen.ReferenceIdeal.Run
import proofs.«123755_j41068477284866_1_alg».proof.Proof.Gen.ReferenceIdeal.Read
import proofs.«123755_j41068477284866_1_alg».proof.Proof.KernelValue
import proofs.«123755_j41068477284866_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the five arguments, both programs end with the normalised embedding of those arguments in
    their result arrays: the kernel block by block, the reference in one piece. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
